-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S6144x2048 : Shape := ⟨2, ![6144, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_

variable [Facts]

def fn {F : FTy → Type} [FloatOps F] (main_arg0 : FVec F S4x4096x2048 .f32) (main_arg1 : FVec F S6144x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  main_v8
-- ==== Kernel.lean ====
abbrev S4x4096x2048 : Shape := ⟨3, ![4, 4096, 2048]⟩
abbrev S6144x2048 : Shape := ⟨2, ![6144, 2048]⟩
abbrev S16384x2048 : Shape := ⟨2, ![16384, 2048]⟩
abbrev S16384x6144 : Shape := ⟨2, ![16384, 6144]⟩
abbrev S512x2048 : Shape := ⟨2, ![512, 2048]⟩
abbrev S1024x2048 : Shape := ⟨2, ![1024, 2048]⟩
abbrev S512x1024 : Shape := ⟨2, ![512, 1024]⟩
abbrev S4x4096x6144 : Shape := ⟨3, ![4, 4096, 6144]⟩
abbrev S4x4096x16x128 : Shape := ⟨4, ![4, 4096, 16, 128]⟩
abbrev S4x16x4096x128 : Shape := ⟨4, ![4, 16, 4096, 128]⟩

abbrev nBuf : Space → Nat
  | .hbm => 14
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S6144x2048, .f32⟩
  | .hbm, ⟨2, _⟩ => ⟨S16384x2048, .f32⟩
  | .hbm, ⟨3, _⟩ => ⟨S16384x6144, .f32⟩
  | .hbm, ⟨4, _⟩ => ⟨S4x4096x6144, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x16x128, .f32⟩
  | .hbm, ⟨9, _⟩ => ⟨S4x16x4096x128, .f32⟩
  | .hbm, ⟨10, _⟩ => ⟨S4x4096x16x128, .f32⟩
  | .hbm, ⟨11, _⟩ => ⟨S4x16x4096x128, .f32⟩
  | .hbm, ⟨12, _⟩ => ⟨S4x4096x16x128, .f32⟩
  | .hbm, ⟨13, _⟩ => ⟨S4x16x4096x128, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1024x2048, .f32⟩
  | .local _ .vmem, ⟨4, _⟩ => ⟨S512x1024, .f32⟩
  | .local _ .vmem, ⟨5, _⟩ => ⟨S512x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S512x1024_S512x1024_0_0 : ∀ a, (![0, 0] : Fin 2 → Nat) a + S512x1024.size a ≤ S512x1024.size a
  h_S512x1024 : 0 < S512x1024.numel
  shapeCasts_S16384x6144_S4x4096x6144 : S16384x6144.ShapeCasts S4x4096x6144
  slices_S4x4096x6144_S4x4096x2048_0_0_0 : S4x4096x6144.Slices ![0, 0, 0] S4x4096x2048
  slices_S4x4096x6144_S4x4096x2048_0_0_2048 : S4x4096x6144.Slices ![0, 0, 2048] S4x4096x2048
  slices_S4x4096x6144_S4x4096x2048_0_0_4096 : S4x4096x6144.Slices ![0, 0, 4096] S4x4096x2048
  shapeCasts_S4x4096x2048_S4x4096x16x128 : S4x4096x2048.ShapeCasts S4x4096x16x128
  transposes_S4x4096x16x128_S4x16x4096x128_0_2_1_3 : S4x4096x16x128.Transposes [0, 2, 1, 3] S4x16x4096x128
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S6144x2048.size a
  hwx0_1 : ∀ i : grid0.Coords, EltTy.bits .f32 = 32 ∨ (Rect.block (s := S6144x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x6144.size a
  hwx0_2 : ∀ i : grid0.Coords, EltTy.bits .f32 = 32 ∨ (Rect.block (s := S16384x6144) S512x1024.size (cc0_transform_2 i) (hinb0_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S6144x2048 : Shape := ⟨2, ![6144, 2048]⟩
abbrev S4x4096x6144 : Shape := ⟨3, ![4, 4096, 6144]⟩
abbrev S4x4096x16x128 : Shape := ⟨4, ![4, 4096, 16, 128]⟩
abbrev S4x16x4096x128 : Shape := ⟨4, ![4, 16, 4096, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S6144x2048, .f32⟩
  | .hbm, ⟨2, _⟩ => ⟨S4x4096x6144, .f32⟩
  | .hbm, ⟨3, _⟩ => ⟨S4x4096x2048, .f32⟩
  | .hbm, ⟨4, _⟩ => ⟨S4x4096x2048, .f32⟩
  | .hbm, ⟨5, _⟩ => ⟨S4x4096x2048, .f32⟩
  | .hbm, ⟨6, _⟩ => ⟨S4x4096x16x128, .f32⟩
  | .hbm, ⟨7, _⟩ => ⟨S4x16x4096x128, .f32⟩
  | .hbm, ⟨8, _⟩ => ⟨S4x4096x16x128, .f32⟩
  | .hbm, ⟨9, _⟩ => ⟨S4x16x4096x128, .f32⟩
  | .hbm, ⟨10, _⟩ => ⟨S4x4096x16x128, .f32⟩
  | .hbm, ⟨11, _⟩ => ⟨S4x16x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]

class Facts₀ : Prop where
  slices_S4x4096x6144_S4x4096x2048_0_0_0 : S4x4096x6144.Slices ![0, 0, 0] S4x4096x2048
  slices_S4x4096x6144_S4x4096x2048_0_0_2048 : S4x4096x6144.Slices ![0, 0, 2048] S4x4096x2048
  slices_S4x4096x6144_S4x4096x2048_0_0_4096 : S4x4096x6144.Slices ![0, 0, 4096] S4x4096x2048
  shapeCasts_S4x4096x2048_S4x4096x16x128 : S4x4096x2048.ShapeCasts S4x4096x16x128
  transposes_S4x4096x16x128_S4x16x4096x128_0_2_1_3 : S4x4096x16x128.Transposes [0, 2, 1, 3] S4x16x4096x128
  dot_S4x4096x2048_S6144x2048_S4x4096x6144_2_1_01_0_n_n_wf : DotDims.WF S4x4096x2048 S6144x2048 S4x4096x6144 [2] [1] [0, 1] [0] [] []

variable [Facts₀]

def dot_S4x4096x2048_S6144x2048_S4x4096x6144_2_1_01_0_n_n : DotDims S4x4096x2048 S6144x2048 S4x4096x6144 where
  lhsContracting := [2]
  rhsContracting := [1]
  lhsNonContracting := [0, 1]
  rhsNonContracting := [0]
  lhsBatch := []
  rhsBatch := []
  wf := dot_S4x4096x2048_S6144x2048_S4x4096x6144_2_1_01_0_n_n_wf

class Facts : Prop extends Facts₀ where

variable [Facts]
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.QkvSpec.lean ====
/-
  The fused query/key/value projection as one function of the two argument arrays, and how a flat product
  over the merged batch-and-sequence axis reads as that function.

  x : [4, 4096, 2048] (batch, position, feature) and w : [6144, 2048] (output feature, feature). The projection is
      proj x w (b, s, f) = ∑ e, x (b, s, e) * w (f, e).
  A kernel that first merges (b, s) into one row axis r = b * 4096 + s computes the flat product
      flat x2 w (r, f) = ∑ e, x2 (r, e) * w (f, e)
  on x2 = x reshaped to [16384, 2048]; reshaping the flat product back to [4, 4096, 6144] is proj x w, because a
  row-major reshape that only merges or splits the two leading axes keeps the last coordinate and sends
  (b, s) to b * 4096 + s. Only the order of the summands is shared, so no law of the extended reals is used.

  The three result arrays are cut from the projection the same way by both programs: a slice of 2048 features,
  a split of the features into 16 heads of 128, and the exchange of the position and head axes. That tail is
  kept as one function `heads` of the projection and is never opened.
-/
import Idealize.ShloMosaic.Lib.ValueIdx
import Idealize.ShloMosaic.Lib.Pipeline.Value

noncomputable section

open scoped BigOperators

namespace QkvSpec

open Idealize.ShloMosaic Idealize.ShloMosaic.ValueIdx

abbrev SX : Shape := ⟨3, ![4, 4096, 2048]⟩
abbrev SW : Shape := ⟨2, ![6144, 2048]⟩
abbrev SQ : Shape := ⟨3, ![4, 4096, 6144]⟩
abbrev SX2 : Shape := ⟨2, ![16384, 2048]⟩
abbrev SO2 : Shape := ⟨2, ![16384, 6144]⟩
abbrev SE : Shape := ⟨3, ![4, 4096, 2048]⟩
abbrev SH : Shape := ⟨4, ![4, 4096, 16, 128]⟩
abbrev ST : Shape := ⟨4, ![4, 16, 4096, 128]⟩

/-- The projection: entry (b, s, f) is the inner product of row (b, s) of `x` with row `f` of `w`. -/
def proj (x : SX.Idx → EReal) (w : SW.Idx → EReal) : SQ.Idx → EReal :=
  fun i => ∑ e : Fin 2048, x (ix3 (i 0) (i 1) e) * w (ix2 (i 2) e)

/-- The flat product over merged rows: entry (r, f) is the inner product of row `r` of `x2` with row `f` of `w`. -/
def flat (x2 : SX2.Idx → EReal) (w : SW.Idx → EReal) : SO2.Idx → EReal :=
  fun j => ∑ e : Fin 2048, x2 (ix2 (j 0) e) * w (ix2 (j 1) e)

/-- Merging (b, s) into rows, multiplying, and splitting the rows again is the projection. -/
theorem unflatten (x : SX.Idx → EReal) (w : SW.Idx → EReal) (hx : SX.ShapeCasts SX2) (ho : SO2.ShapeCasts SQ) :
    shapeCast SQ (flat (shapeCast SX2 x hx) w) ho = proj x w := by
  funext i
  have h0 : (i 0).val < 4 := (i 0).isLt
  have h1 : (i 1).val < 4096 := (i 1).isLt
  have h2 : (i 2).val < 6144 := (i 2).isLt
  have hr : (i 0).val * 4096 + (i 1).val < 16384 := by omega
  rw [shapeCast_apply (flat (shapeCast SX2 x hx) w) ho i (ix2 ⟨(i 0).val * 4096 + (i 1).val, hr⟩ (i 2))
    (by rewrite [Shape.rowMajor_val_two, Shape.rowMajor_val_three]
        show ((i 0).val * 4096 + (i 1).val) * 6144 + (i 2).val = ((i 0).val * 4096 + (i 1).val) * 6144 + (i 2).val
        rfl)]
  unfold flat proj
  refine Finset.sum_congr rfl fun e _ => ?_
  show shapeCast SX2 x hx (ix2 ⟨(i 0).val * 4096 + (i 1).val, hr⟩ e) * w (ix2 (i 2) e) = _
  rw [shapeCast_apply x hx (ix2 ⟨(i 0).val * 4096 + (i 1).val, hr⟩ e) (ix3 (i 0) (i 1) e)
    (by rewrite [Shape.rowMajor_val_two, Shape.rowMajor_val_three]
        show ((i 0).val * 4096 + (i 1).val) * 2048 + e.val = ((i 0).val * 4096 + (i 1).val) * 2048 + e.val
        rfl)]

/-- One result array from the projection: the 2048 features starting at `off 2`, split into 16 heads of 128, the
    position and head axes exchanged. -/
def heads {α : Type} (off : Fin 3 → Nat) (y : SQ.Idx → α) (hs : SQ.Slices off SE) (hc : SE.ShapeCasts SH)
    (ht : SH.Transposes [0, 2, 1, 3] ST) : ST.Idx → α :=
  transpose ST [0, 2, 1, 3] (shapeCast SH (extractStridedSlice SE off y hs) hc) ht

end QkvSpec

end
-- ==== Proof.KernelValue.lean ====
/-
  What the idealized kernel leaves in its three result arrays.

  The one region multiplies row blocks: at the grid point with coordinates (j, i) it loads rows 512 i … 512 i + 511 of
  the merged input x2 : [16384, 2048] and rows 1024 j … 1024 j + 1023 of the weight w : [6144, 2048], contracts both
  along the feature axis, and stores the 512 x 1024 tile into block (i, j) of the product array. Over the extended
  reals the two roundings to a shorter format are the identity and the product into a zero accumulator is a plain
  sum, so the tile's entry (p, q) is ∑ e, x2 (512 i + p, e) * w (1024 j + q, e): block (i, j) of `QkvSpec.flat x2 w`.
  The 192 tiles cover the product array, so it ends holding `flat x2 w`; x2 is the input reshaped, and the lines
  after the region reshape the product to [4, 4096, 6144] (the projection, `QkvSpec.unflatten`) and cut the three
  results from it (`QkvSpec.heads`).
-/
import proofs.«135940_j1039382086403_1_alg».proof.Proof.Gen.KernelIdeal.Frame
import proofs.«135940_j1039382086403_1_alg».proof.Proof.LibDotForms
import proofs.«135940_j1039382086403_1_alg».proof.Proof.QkvSpec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen QkvSpec

variable (m : (ℓ : Loc nD τ sig) → Buf (Elt Ideal) ℓ) (ρ : Dev nD → PrngReg)

theorem hz : (![0, 0] : Fin 2 → Nat) = fun _ => 0 := funext fun a => by fin_cases a <;> rfl

/-- The merged input and the weight as the region finds them, as arrays of extended reals. -/
abbrev xarr (c : Dev nD) : SX2.Idx → EReal := V m c main_v0
abbrev warr (c : Dev nD) : SW.Idx → EReal := V m c main_arg1

/-- The tile product contracts the second axis of both operands. -/
theorem tile_dims : DotForms.IsABt dot_S512x2048_S1024x2048_S512x1024_1_1_0_0_n_n := ⟨rfl, rfl, rfl, rfl, rfl, rfl⟩

/-- The stored tile at (p, q): the inner product of row p of the input block with row q of the weight block. -/
theorem tile_apply (x0 : Vec Ideal S512x2048 .f32) (x1 : Vec Ideal S1024x2048 .f32) (p : Fin 512) (q : Fin 1024) :
    k0_pay1 (F := Ideal) x0 x1 (ix2 p q) = ∑ e : Fin 2048, x0 (ix2 p e) * x1 (ix2 q e) := by
  unfold k0_pay1
  refine (DotForms.abt_matmul_zero_apply tile_dims none _ _ p q).trans ?_
  refine Finset.sum_congr rfl fun e _ => ?_
  exact congrArg (· * x1 (ix2 q e)) (congrFun (shapeCast_self x0 _) (ix2 p e))

/-- The printed index maps over the grid: the input block's row index is the output block's, the weight block's row
    index is the output block's column index, neither input is blocked along the features, and the output's block
    indices stay in range. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 31 ∧ win0_2.index t (1 : Fin 2) ≤ 5 :=
  (by decide +kernel : ∀ t : Fin grid0.N, _)

/-- Every block of the product array is some point's. -/
theorem idx_onto : ∀ (q0 : Fin 32) (q1 : Fin 6), ∃ t : Fin cfg0.N, win0_2.index t = ![q0.val, q1.val] :=
  (by decide +kernel : ∀ (q0 : Fin 32) (q1 : Fin 6), ∃ t : Fin grid0.N, win0_2.index t = ![q0.val, q1.val])

/-- What point t writes back is block t of the flat product of the arrays the region finds. -/
theorem flushed_eq (c : Dev nD) (t : Fin cfg0.N) :
    (dats m 0 c).flushed 2 t = ((cfg0.win 2).blk t).view.read (Elt Ideal) (flat (xarr m c) (warr m c)) := by
  show (cfg0.win 2).cut (grid0.coords t) ((dats m 0 c).after 2 t) = _
  rw [after0_2]
  unfold out0_2
  rw [View.canon_unit_zero hz]
  simp only [View.ld_unit_zero (S := S512x2048) hz, View.ld_unit_zero (S := S1024x2048) hz]
  obtain ⟨e0, e1, e2, e3, e4, e5⟩ := idx_facts t
  funext y
  obtain ⟨p, q, rfl⟩ : ∃ (p : Fin 512) (q : Fin 1024), y = ix2 p q := ⟨y 0, y 1, eq_ix2 y⟩
  show k0_pay1 (iblk m c 0 t) (iblk m c 1 t) (ix2 p q) = flat (xarr m c) (warr m c) (((cfg0.win 2).blk t).view.emb (ix2 p q))
  refine (tile_apply (iblk m c 0 t) (iblk m c 1 t) p q).trans ?_
  unfold flat
  refine Finset.sum_congr rfl fun e _ => ?_
  have hL : ((cfg0.win 0).blk t).view.emb (ix2 p e) = ix2 ((((cfg0.win 2).blk t).view.emb (ix2 p q)) 0) e := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 2048 + 1 * e.val = e.val; omega
  have hR : ((cfg0.win 1).blk t).view.emb (ix2 q e) = ix2 ((((cfg0.win 2).blk t).view.emb (ix2 p q)) 1) e := by
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 2048 + 1 * e.val = e.val; omega
  show xarr m c (((cfg0.win 0).blk t).view.emb (ix2 p e)) * warr m c (((cfg0.win 1).blk t).view.emb (ix2 q e)) = _
  exact congrArg₂ (· * ·) (congrArg (xarr m c) hL) (congrArg (warr m c) hR)

/-- An index of the product array is in point t's block iff each coordinate is in the block's range on its axis. -/
theorem mem_blk (t : Fin cfg0.N) (i : S16384x6144.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- The tiles cover the product array: entry (r, f) lies in block (r / 512, f / 1024). -/
theorem cover (i : S16384x6144.Idx) : ∃ t : Fin cfg0.N, (cfg0.win 2).flush t = true ∧ i ∈ ((cfg0.win 2).blk t).view.set := by
  have hi0 : (i 0).val < 16384 := (i 0).isLt
  have hi1 : (i 1).val < 6144 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The product array after the region is the flat product of the arrays the region finds. -/
theorem final (c : Dev nD) : (dats m 0 c).arrAt 2 cfg0.N = flat (xarr m c) (warr m c) :=
  (dats m 0 c).arrAt_eq_of_cover 2 _ (fun t _ => flushed_eq m c t) cover

/-- The merged input the region finds is the first argument reshaped. -/
theorem V_main_v0 (c : Dev nD) :
    V m c main_v0 = shapeCast S16384x2048 (m ((c : Thread nD τ).loc main_arg0)) shapeCasts_S4x4096x2048_S16384x2048 := by
  show StableHlo.after hostOps0 (fun b => m (c, b)) (Proc.devRef .tc main_v0) = _
  after_results
  rfl

end Cert.KernelIdeal.Hand

end
-- ==== Proof.KernelRun.lean ====
/-
  The idealized kernel's run, read: each of the three result arrays is the tail `QkvSpec.heads` applied to the
  projection `QkvSpec.proj` of the two argument arrays, and the arguments end as they began.

  The frame run leaves the product array at the flat product (`final`); the first line after the region reshapes it
  to [4, 4096, 6144], which is the projection (`projection_eq`); the remaining lines are the slices, the split into
  heads and the exchange of axes, read back as one term.
-/
import proofs.«135940_j1039382086403_1_alg».proof.Proof.KernelValue

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen QkvSpec

variable (m : (ℓ : Loc nD τ sig) → Buf (Elt Ideal) ℓ) (ρ : Dev nD → PrngReg)

/-- The product array reshaped to [4, 4096, 6144] is the projection of the arguments. -/
theorem projection_eq (c : Dev nD) :
    shapeCast S4x4096x6144 ((dats m 0 c).arrAt 2 cfg0.N) shapeCasts_S16384x6144_S4x4096x6144
      = proj (m ((c : Thread nD τ).loc main_arg0)) (m ((c : Thread nD τ).loc main_arg1)) := by
  rw [final]
  show shapeCast SQ (flat (V m c main_v0) (V m c main_arg1)) _ = _
  rw [V_main_v0, V_main_arg1]
  exact unflatten _ _ _ _

/-- Among the buffers the region leaves, the product array is the one the frame run computed. -/
theorem product_array (c : Dev nD) :
    Pipeline.withArrays (cfgs 0).spec c (V0 m c) (fun w => (dats m 0 c).arrAt w (cfgs 0).N) (Proc.devRef .tc main_v1)
      = (dats m 0 c).arrAt 2 cfg0.N :=
  Pipeline.withArrays_arr spec0 launch0.win.arr_inj c _ _ 2

/-- Result `main_v7` after the lines that follow the region: the tail applied to the projection of the arguments. -/
theorem tail_main_v7 (c : Dev nD) : Pipeline.afterTail₀ cfgs (dats m) 0 (V0 m) [hostOps1] c main_v7
    = heads ![0, 0, 0] (proj (m ((c : Thread nD τ).loc main_arg0)) (m ((c : Thread nD τ).loc main_arg1))) slices_S4x4096x6144_S4x4096x2048_0_0_0 shapeCasts_S4x4096x2048_S4x4096x16x128 transposes_S4x4096x16x128_S4x16x4096x128_0_2_1_3 := by
  have h : Pipeline.afterTail₀ cfgs (dats m) 0 (V0 m) [hostOps1] c main_v7
      = heads ![0, 0, 0] (shapeCast S4x4096x6144 (Pipeline.withArrays (cfgs 0).spec c (V0 m c) (fun w => (dats m 0 c).arrAt w (cfgs 0).N) (Proc.devRef .tc main_v1)) shapeCasts_S16384x6144_S4x4096x6144) slices_S4x4096x6144_S4x4096x2048_0_0_0 shapeCasts_S4x4096x2048_S4x4096x16x128 transposes_S4x4096x16x128_S4x16x4096x128_0_2_1_3 := by
    unfold Pipeline.afterTail₀
    show StableHlo.after hostOps1 _ (Proc.devRef .tc main_v7) = _
    after_results
    rfl
  rw [h, product_array, projection_eq]

/-- Result `main_v9` after the lines that follow the region: the tail applied to the projection of the arguments. -/
theorem tail_main_v9 (c : Dev nD) : Pipeline.afterTail₀ cfgs (dats m) 0 (V0 m) [hostOps1] c main_v9
    = heads ![0, 0, 2048] (proj (m ((c : Thread nD τ).loc main_arg0)) (m ((c : Thread nD τ).loc main_arg1))) slices_S4x4096x6144_S4x4096x2048_0_0_2048 shapeCasts_S4x4096x2048_S4x4096x16x128 transposes_S4x4096x16x128_S4x16x4096x128_0_2_1_3 := by
  have h : Pipeline.afterTail₀ cfgs (dats m) 0 (V0 m) [hostOps1] c main_v9
      = heads ![0, 0, 2048] (shapeCast S4x4096x6144 (Pipeline.withArrays (cfgs 0).spec c (V0 m c) (fun w => (dats m 0 c).arrAt w (cfgs 0).N) (Proc.devRef .tc main_v1)) shapeCasts_S16384x6144_S4x4096x6144) slices_S4x4096x6144_S4x4096x2048_0_0_2048 shapeCasts_S4x4096x2048_S4x4096x16x128 transposes_S4x4096x16x128_S4x16x4096x128_0_2_1_3 := by
    unfold Pipeline.afterTail₀
    show StableHlo.after hostOps1 _ (Proc.devRef .tc main_v9) = _
    after_results
    rfl
  rw [h, product_array, projection_eq]

/-- Result `main_v11` after the lines that follow the region: the tail applied to the projection of the arguments. -/
theorem tail_main_v11 (c : Dev nD) : Pipeline.afterTail₀ cfgs (dats m) 0 (V0 m) [hostOps1] c main_v11
    = heads ![0, 0, 4096] (proj (m ((c : Thread nD τ).loc main_arg0)) (m ((c : Thread nD τ).loc main_arg1))) slices_S4x4096x6144_S4x4096x2048_0_0_4096 shapeCasts_S4x4096x2048_S4x4096x16x128 transposes_S4x4096x16x128_S4x16x4096x128_0_2_1_3 := by
  have h : Pipeline.afterTail₀ cfgs (dats m) 0 (V0 m) [hostOps1] c main_v11
      = heads ![0, 0, 4096] (shapeCast S4x4096x6144 (Pipeline.withArrays (cfgs 0).spec c (V0 m c) (fun w => (dats m 0 c).arrAt w (cfgs 0).N) (Proc.devRef .tc main_v1)) shapeCasts_S16384x6144_S4x4096x6144) slices_S4x4096x6144_S4x4096x2048_0_0_4096 shapeCasts_S4x4096x2048_S4x4096x16x128 transposes_S4x4096x16x128_S4x16x4096x128_0_2_1_3 := by
    unfold Pipeline.afterTail₀
    show StableHlo.after hostOps1 _ (Proc.devRef .tc main_v11) = _
    after_results
    rfl
  rw [h, product_array, projection_eq]

/-- The run: the three results at the tail of the projection, the arguments unchanged. -/
theorem run : θ_run defs (onTc (τ := τ) (main (F := Ideal))) ⟨m, fun _ => 0, ρ⟩ fun r => ∀ c : Dev nD,
      r.2.mem ((c.tc : Thread nD τ).loc main_v7) = heads ![0, 0, 0] (proj (m ((c : Thread nD τ).loc main_arg0)) (m ((c : Thread nD τ).loc main_arg1))) slices_S4x4096x6144_S4x4096x2048_0_0_0 shapeCasts_S4x4096x2048_S4x4096x16x128 transposes_S4x4096x16x128_S4x16x4096x128_0_2_1_3
      ∧ r.2.mem ((c.tc : Thread nD τ).loc main_v9) = heads ![0, 0, 2048] (proj (m ((c : Thread nD τ).loc main_arg0)) (m ((c : Thread nD τ).loc main_arg1))) slices_S4x4096x6144_S4x4096x2048_0_0_2048 shapeCasts_S4x4096x2048_S4x4096x16x128 transposes_S4x4096x16x128_S4x16x4096x128_0_2_1_3
      ∧ r.2.mem ((c.tc : Thread nD τ).loc main_v11) = heads ![0, 0, 4096] (proj (m ((c : Thread nD τ).loc main_arg0)) (m ((c : Thread nD τ).loc main_arg1))) slices_S4x4096x6144_S4x4096x2048_0_0_4096 shapeCasts_S4x4096x2048_S4x4096x16x128 transposes_S4x4096x16x128_S4x16x4096x128_0_2_1_3
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (Pipeline.mem_restRefs_of main_v7 (by decide) (by decide))).trans (tail_main_v7 m c),
     ((h c).2 main_v9 (Pipeline.mem_restRefs_of main_v9 (by decide) (by decide))).trans (tail_main_v9 m c),
     ((h c).2 main_v11 (Pipeline.mem_restRefs_of main_v11 (by decide) (by decide))).trans (tail_main_v11 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.Hand

end
-- ==== Proof.RefValue.lean ====
/-
  What the idealized reference leaves in its three result arrays.

  Its one product contracts the feature axis of x : [4, 4096, 2048] with the feature axis of w : [6144, 2048] and keeps
  the batch, position and output-feature axes: over the extended reals the entry (b, s, f) is
  ∑ e, x (b, s, e) * w (f, e), the projection `QkvSpec.proj x w`. The three results are cut from it by the tail
  `QkvSpec.heads`.
-/
import proofs.«135940_j1039382086403_1_alg».proof.Proof.Gen.ReferenceIdeal.Read
import proofs.«135940_j1039382086403_1_alg».proof.Proof.QkvSpec

noncomputable section

open scoped BigOperators
open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read QkvSpec

/-- The reference's product is the projection, entry by entry. -/
theorem dot_eq_proj (x : FVec Ideal S4x4096x2048 .f32) (w : FVec Ideal S6144x2048 .f32) :
    Host.dotGeneral (F := Ideal) dot_S4x4096x2048_S6144x2048_S4x4096x6144_2_1_01_0_n_n none x w = proj x w := by
  funext i
  refine (val_main_v0_apply x w i).trans ?_
  unfold proj
  refine Finset.sum_congr rfl fun e _ => ?_
  have hl : lidx_main_v0 i e = ix3 (i 0) (i 1) e := funext fun a => Fin.ext (by
    match a with
    | ⟨0, _⟩ => rfl
    | ⟨1, _⟩ => rfl
    | ⟨2, _⟩ => rfl)
  have hr : ridx_main_v0 i e = ix2 (i 2) e := funext fun a => Fin.ext (by
    match a with
    | ⟨0, _⟩ => rfl
    | ⟨1, _⟩ => rfl)
  exact congrArg₂ (· * ·) (congrArg x hl) (congrArg w hr)

/-- Each result of the reference's run is the tail applied to the projection. -/
theorem res_v5 (x : FVec Ideal S4x4096x2048 .f32) (w : FVec Ideal S6144x2048 .f32) :
    transpose S4x16x4096x128 [0, 2, 1, 3] (shapeCast _ (extractStridedSlice S4x4096x2048 ![0, 0, 0] (Host.dotGeneral (F := Ideal) dot_S4x4096x2048_S6144x2048_S4x4096x6144_2_1_01_0_n_n none x w) slices_S4x4096x6144_S4x4096x2048_0_0_0) shapeCasts_S4x4096x2048_S4x4096x16x128) transposes_S4x4096x16x128_S4x16x4096x128_0_2_1_3
      = heads ![0, 0, 0] (proj x w) slices_S4x4096x6144_S4x4096x2048_0_0_0 shapeCasts_S4x4096x2048_S4x4096x16x128 transposes_S4x4096x16x128_S4x16x4096x128_0_2_1_3 := by
  rw [dot_eq_proj]; rfl

theorem res_v7 (x : FVec Ideal S4x4096x2048 .f32) (w : FVec Ideal S6144x2048 .f32) :
    transpose S4x16x4096x128 [0, 2, 1, 3] (shapeCast _ (extractStridedSlice S4x4096x2048 ![0, 0, 2048] (Host.dotGeneral (F := Ideal) dot_S4x4096x2048_S6144x2048_S4x4096x6144_2_1_01_0_n_n none x w) slices_S4x4096x6144_S4x4096x2048_0_0_2048) shapeCasts_S4x4096x2048_S4x4096x16x128) transposes_S4x4096x16x128_S4x16x4096x128_0_2_1_3
      = heads ![0, 0, 2048] (proj x w) slices_S4x4096x6144_S4x4096x2048_0_0_2048 shapeCasts_S4x4096x2048_S4x4096x16x128 transposes_S4x4096x16x128_S4x16x4096x128_0_2_1_3 := by
  rw [dot_eq_proj]; rfl

theorem res_v9 (x : FVec Ideal S4x4096x2048 .f32) (w : FVec Ideal S6144x2048 .f32) :
    transpose S4x16x4096x128 [0, 2, 1, 3] (shapeCast _ (extractStridedSlice S4x4096x2048 ![0, 0, 4096] (Host.dotGeneral (F := Ideal) dot_S4x4096x2048_S6144x2048_S4x4096x6144_2_1_01_0_n_n none x w) slices_S4x4096x6144_S4x4096x2048_0_0_4096) shapeCasts_S4x4096x2048_S4x4096x16x128) transposes_S4x4096x16x128_S4x16x4096x128_0_2_1_3
      = heads ![0, 0, 4096] (proj x w) slices_S4x4096x6144_S4x4096x2048_0_0_4096 shapeCasts_S4x4096x2048_S4x4096x16x128 transposes_S4x4096x16x128_S4x16x4096x128_0_2_1_3 := by
  rw [dot_eq_proj]; rfl

end Cert.ReferenceIdeal.Hand

end
-- ==== Proof.lean ====
/-
  The fused query/key/value projection: a tiled matrix product against `einsum('bse,fe->bsf')`.

  Both programs compute, for x : [4, 4096, 2048] and w : [6144, 2048], the projection
      proj x w (b, s, f) = ∑ e, x (b, s, e) * w (f, e)
  and cut the three results from it by the same slices, split into heads and exchange of axes (`QkvSpec.heads`).
  The kernel merges (b, s) into 16384 rows, multiplies 512 x 1024 tiles of the product over a 6 x 32 grid with both
  operands rounded to a shorter format (the identity over the extended reals), and splits the rows again; the
  reference contracts the feature axes in one product. Entry by entry the two are the same sum over the same 2048
  summands in the same order, so no law of the extended reals beyond equality of the summands is needed and the
  finiteness of the inputs is not used.

  `Cert.KernelIdeal.Hand.run` reads the kernel's run, `Cert.ReferenceIdeal.Hand.res_v5` … `res_v9` the reference's.
  The idealization rewrote nothing, so `preserves` is `True`.
-/
import proofs.«135940_j1039382086403_1_alg».proof.Defs
import proofs.«135940_j1039382086403_1_alg».proof.Proof.Gen.Kernel
import proofs.«135940_j1039382086403_1_alg».proof.Proof.Gen.Kernel.Skeleton
import proofs.«135940_j1039382086403_1_alg».proof.Proof.Gen.Kernel.Launch
import proofs.«135940_j1039382086403_1_alg».proof.Proof.Gen.Kernel.Points
import proofs.«135940_j1039382086403_1_alg».proof.Proof.Gen.Kernel.Frame
import proofs.«135940_j1039382086403_1_alg».proof.Proof.Gen.KernelIdeal
import proofs.«135940_j1039382086403_1_alg».proof.Proof.Gen.KernelIdeal.Skeleton
import proofs.«135940_j1039382086403_1_alg».proof.Proof.Gen.KernelIdeal.Launch
import proofs.«135940_j1039382086403_1_alg».proof.Proof.Gen.KernelIdeal.Points
import proofs.«135940_j1039382086403_1_alg».proof.Proof.Gen.KernelIdeal.Frame
import proofs.«135940_j1039382086403_1_alg».proof.Proof.Gen.ReferenceIdeal
import proofs.«135940_j1039382086403_1_alg».proof.Proof.Gen.Pre_finite_inputs
import proofs.«135940_j1039382086403_1_alg».proof.Proof.Gen.ReferenceIdeal.Run
import proofs.«135940_j1039382086403_1_alg».proof.Proof.Gen.ReferenceIdeal.Read
import proofs.«135940_j1039382086403_1_alg».proof.Proof.KernelRun
import proofs.«135940_j1039382086403_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the arguments both programs end with each result at the tail of the projection of
    the arguments. -/
theorem algebraic : Cert.algebraic_KernelIdeal_ReferenceIdeal := by
  intro m ρ m' ρ' _ hagree
  refine ⟨_, _, _, Cert.KernelIdeal.Hand.run m ρ, ?_⟩
  refine (θ_run Cert.ReferenceIdeal.defs _ _).mono (fun _ h c => ⟨?_, ?_, ?_, (h c).2.2.2.1, (h c).2.2.2.2⟩)
    (Cert.ReferenceIdeal.Value.run (F := Ideal) m' ρ')
  · refine ((h c).1.trans (Cert.ReferenceIdeal.Hand.res_v5 _ _)).trans ?_
    rw [(hagree c).1, (hagree c).2]
  · refine ((h c).2.1.trans (Cert.ReferenceIdeal.Hand.res_v7 _ _)).trans ?_
    rw [(hagree c).1, (hagree c).2]
  · refine ((h c).2.2.1.trans (Cert.ReferenceIdeal.Hand.res_v9 _ _)).trans ?_
    rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
